-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x3x224x224 : Shape := ⟨4, ![256, 3, 224, 224]⟩
abbrev S3x224x224 : Shape := ⟨3, ![3, 224, 224]⟩
abbrev S196 : Shape := ⟨1, ![196]⟩
abbrev S_ : Shape := ⟨0, ![]⟩

class Facts : Prop where
  bcast_S_S256x3x224x224 : S_.BroadcastsInDim S256x3x224x224 (![] : Fin 0 → Fin S256x3x224x224.rank)
  reducesTo_S256x3x224x224_S_d0_1_2_3 : S256x3x224x224.ReducesTo [0, 1, 2, 3] S_
  h_S_ : 0 < S_.numel
  bcast_S_S3x224x224 : S_.BroadcastsInDim S3x224x224 (![] : Fin 0 → Fin S3x224x224.rank)
  reducesTo_S3x224x224_S_d0_1_2 : S3x224x224.ReducesTo [0, 1, 2] S_
  bcast_S_S196 : S_.BroadcastsInDim S196 (![] : Fin 0 → Fin S196.rank)
  reducesTo_S196_S_d0 : S196.ReducesTo [0] S_

variable [Facts]

def fn {F : FTy → Type} [FloatOps F] (main_arg0 : FVec F S256x3x224x224 .f32) (main_arg1 : FVec F S3x224x224 .f32) (main_arg2 : FVec F S196 .f32) : IVec S_ 1 :=
  let main_v0 : FVec F S256x3x224x224 .f32 := Host.absf main_arg0
  let main_cst : FVec F S_ .f32 := constant S_ .f32 0x7F800000#32
  let main_v1 : FVec F S256x3x224x224 .f32 := broadcastInDim S256x3x224x224 ![] bcast_S_S256x3x224x224 main_cst
  let main_v2 : IVec S256x3x224x224 1 := cmpf .olt main_v0 main_v1
  let main_c : IVec S_ 1 := constantI S_ 1 1#1
  let main_v3 : IVec S_ 1 := (fun x v => Host.reduce IntOp.andi x v reducesTo_S256x3x224x224_S_d0_1_2_3 h_S_) main_v2 main_c
  let main_v4 : FVec F S3x224x224 .f32 := Host.absf main_arg1
  let main_cst_0 : FVec F S_ .f32 := constant S_ .f32 0x7F800000#32
  let main_v5 : FVec F S3x224x224 .f32 := broadcastInDim S3x224x224 ![] bcast_S_S3x224x224 main_cst_0
  let main_v6 : IVec S3x224x224 1 := cmpf .olt main_v4 main_v5
  let main_c_1 : IVec S_ 1 := constantI S_ 1 1#1
  let main_v7 : IVec S_ 1 := (fun x v => Host.reduce IntOp.andi x v reducesTo_S3x224x224_S_d0_1_2 h_S_) main_v6 main_c_1
  let main_v8 : IVec S_ 1 := andi main_v3 main_v7
  let main_v9 : FVec F S196 .f32 := Host.absf main_arg2
  let main_cst_2 : FVec F S_ .f32 := constant S_ .f32 0x7F800000#32
  let main_v10 : FVec F S196 .f32 := broadcastInDim S196 ![] bcast_S_S196 main_cst_2
  let main_v11 : IVec S196 1 := cmpf .olt main_v9 main_v10
  let main_c_3 : IVec S_ 1 := constantI S_ 1 1#1
  let main_v12 : IVec S_ 1 := (fun x v => Host.reduce IntOp.andi x v reducesTo_S196_S_d0 h_S_) main_v11 main_c_3
  let main_v13 : IVec S_ 1 := andi main_v8 main_v12
  main_v13
-- ==== Kernel.lean ====
abbrev S256x3x224x224 : Shape := ⟨4, ![256, 3, 224, 224]⟩
abbrev S3x224x224 : Shape := ⟨3, ![3, 224, 224]⟩
abbrev S196 : Shape := ⟨1, ![196]⟩
abbrev S14x14 : Shape := ⟨2, ![14, 14]⟩
abbrev S14x16x14 : Shape := ⟨3, ![14, 16, 14]⟩
abbrev S224x14 : Shape := ⟨2, ![224, 14]⟩
abbrev S224x14x16 : Shape := ⟨3, ![224, 14, 16]⟩
abbrev S224x224 : Shape := ⟨2, ![224, 224]⟩
abbrev S16x3x224x224 : Shape := ⟨4, ![16, 3, 224, 224]⟩
abbrev S1x1x224x224 : Shape := ⟨4, ![1, 1, 224, 224]⟩
abbrev S1x3x224x224 : Shape := ⟨4, ![1, 3, 224, 224]⟩

abbrev nBuf : Space → Nat
  | .hbm => 10
  | .vmem => 6
  | .smem => 0
  | _ => 0

abbrev bufTy : (tb : Table) → Fin (tcTables nBuf tb) → BufTy
  | .hbm, ⟨0, _⟩ => ⟨S256x3x224x224, .f32⟩
  | .hbm, ⟨1, _⟩ => ⟨S3x224x224, .f32⟩
  | .hbm, ⟨2, _⟩ => ⟨S196, .f32⟩
  | .hbm, ⟨3, _⟩ => ⟨S196, .f32⟩
  | .hbm, ⟨4, _⟩ => ⟨S14x14, .f32⟩
  | .hbm, ⟨5, _⟩ => ⟨S14x16x14, .f32⟩
  | .hbm, ⟨6, _⟩ => ⟨S224x14, .f32⟩
  | .hbm, ⟨7, _⟩ => ⟨S224x14x16, .f32⟩
  | .hbm, ⟨8, _⟩ => ⟨S224x224, .f32⟩
  | .hbm, ⟨9, _⟩ => ⟨S256x3x224x224, .f32⟩
  | .local _ .vmem, ⟨0, _⟩ => ⟨S16x3x224x224, .f32⟩
  | .local _ .vmem, ⟨1, _⟩ => ⟨S16x3x224x224, .f32⟩
  | .local _ .vmem, ⟨2, _⟩ => ⟨S3x224x224, .f32⟩
  | .local _ .vmem, ⟨3, _⟩ => ⟨S224x224, .f32⟩
  | .local _ .vmem, ⟨4, _⟩ => ⟨S16x3x224x224, .f32⟩
  | .local _ .vmem, ⟨5, _⟩ => ⟨S16x3x224x224, .f32⟩
  | _, _ => ⟨S256x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x3x224x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x224x224 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x224 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x3x224x224 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S196_S14x14 : S196.ShapeCasts S14x14
  bcast_S14x14_S14x16x14_0_2 : S14x14.BroadcastsInDim S14x16x14 (![0, 2] : Fin 2 → Fin S14x16x14.rank)
  shapeCasts_S14x16x14_S224x14 : S14x16x14.ShapeCasts S224x14
  bcast_S224x14_S224x14x16_0_1 : S224x14.BroadcastsInDim S224x14x16 (![0, 1] : Fin 2 → Fin S224x14x16.rank)
  shapeCasts_S224x14x16_S224x224 : S224x14x16.ShapeCasts S224x224
  inb_S224x224_S224x224_0_0 : ∀ a, (![0, 0] : Fin 2 → Nat) a + S224x224.size a ≤ S224x224.size a
  h_S224x224 : 0 < S224x224.numel
  shapeCasts_S224x224_S224x224 : S224x224.ShapeCasts S224x224
  inb_S3x224x224_S3x224x224_0_0_0 : ∀ a, (![0, 0, 0] : Fin 3 → Nat) a + S3x224x224.size a ≤ S3x224x224.size a
  h_S3x224x224 : 0 < S3x224x224.numel
  inb_S16x3x224x224_S16x3x224x224_0_0_0_0 : ∀ a, (![0, 0, 0, 0] : Fin 4 → Nat) a + S16x3x224x224.size a ≤ S16x3x224x224.size a
  h_S16x3x224x224 : 0 < S16x3x224x224.numel
  shapeCasts_S224x224_S1x1x224x224 : S224x224.ShapeCasts S1x1x224x224
  shapeCasts_S1x1x224x224_S1x1x224x224 : S1x1x224x224.ShapeCasts S1x1x224x224
  broadcasts_S1x1x224x224_S16x3x224x224 : S1x1x224x224.Broadcasts S16x3x224x224
  shapeCasts_S3x224x224_S1x3x224x224 : S3x224x224.ShapeCasts S1x3x224x224
  shapeCasts_S1x3x224x224_S1x3x224x224 : S1x3x224x224.ShapeCasts S1x3x224x224
  broadcasts_S1x3x224x224_S16x3x224x224 : S1x3x224x224.Broadcasts S16x3x224x224
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x3x224x224.size a ≤ S256x3x224x224.size a
  hwx0_0 : ∀ i : grid0.Coords, EltTy.bits .f32 = 32 ∨ (Rect.block (s := S256x3x224x224) S16x3x224x224.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x224x224.size a ≤ S3x224x224.size a
  hwx0_1 : ∀ i : grid0.Coords, EltTy.bits .f32 = 32 ∨ (Rect.block (s := S3x224x224) S3x224x224.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S224x224.size a ≤ S224x224.size a
  hwx0_2 : ∀ i : grid0.Coords, EltTy.bits .f32 = 32 ∨ (Rect.block (s := S224x224) S224x224.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x3x224x224.size a ≤ S256x3x224x224.size a
  hwx0_3 : ∀ i : grid0.Coords, EltTy.bits .f32 = 32 ∨ (Rect.block (s := S256x3x224x224) S16x3x224x224.size (cc0_transform_3 i) (hinb0_3 i)).WholeWords (EltTy.packing .f32)

variable [Facts₀]

abbrev win0_0 : Pipeline.Window sig grid0 :=
  Pipeline.Window.ofSpec (Memref.whole main_arg0) S16x3x224x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x224x224.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S224x224.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S16x3x224x224.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x3x224x224 : Shape := ⟨4, ![256, 3, 224, 224]⟩
abbrev S3x224x224 : Shape := ⟨3, ![3, 224, 224]⟩
abbrev S196 : Shape := ⟨1, ![196]⟩
abbrev S14x14 : Shape := ⟨2, ![14, 14]⟩
abbrev S14x16x14 : Shape := ⟨3, ![14, 16, 14]⟩
abbrev S224x14 : Shape := ⟨2, ![224, 14]⟩
abbrev S224x14x16 : Shape := ⟨3, ![224, 14, 16]⟩
abbrev S224x224 : Shape := ⟨2, ![224, 224]⟩
abbrev S_ : Shape := ⟨0, ![]⟩
abbrev S1x1x224x224 : Shape := ⟨4, ![1, 1, 224, 224]⟩
abbrev S1x224x224 : Shape := ⟨3, ![1, 224, 224]⟩
abbrev S1x3x224x224 : Shape := ⟨4, ![1, 3, 224, 224]⟩

abbrev nBuf : Space → Nat
  | .hbm => 29
  | .vmem => 0
  | .smem => 0
  | _ => 0

abbrev bufTy : (tb : Table) → Fin (tcTables nBuf tb) → BufTy
  | .hbm, ⟨0, _⟩ => ⟨S256x3x224x224, .f32⟩
  | .hbm, ⟨1, _⟩ => ⟨S3x224x224, .f32⟩
  | .hbm, ⟨2, _⟩ => ⟨S196, .f32⟩
  | .hbm, ⟨3, _⟩ => ⟨S196, .f32⟩
  | .hbm, ⟨4, _⟩ => ⟨S14x14, .f32⟩
  | .hbm, ⟨5, _⟩ => ⟨S14x16x14, .f32⟩
  | .hbm, ⟨6, _⟩ => ⟨S224x14, .f32⟩
  | .hbm, ⟨7, _⟩ => ⟨S224x14x16, .f32⟩
  | .hbm, ⟨8, _⟩ => ⟨S224x224, .f32⟩
  | .hbm, ⟨9, _⟩ => ⟨S_, .f32⟩
  | .hbm, ⟨10, _⟩ => ⟨S224x224, .f32⟩
  | .hbm, ⟨11, _⟩ => ⟨S224x224, .f32⟩
  | .hbm, ⟨12, _⟩ => ⟨S1x1x224x224, .f32⟩
  | .hbm, ⟨13, _⟩ => ⟨S256x3x224x224, .f32⟩
  | .hbm, ⟨14, _⟩ => ⟨S256x3x224x224, .f32⟩
  | .hbm, ⟨15, _⟩ => ⟨S1x224x224, .f32⟩
  | .hbm, ⟨16, _⟩ => ⟨S3x224x224, .f32⟩
  | .hbm, ⟨17, _⟩ => ⟨S3x224x224, .f32⟩
  | .hbm, ⟨18, _⟩ => ⟨S1x3x224x224, .f32⟩
  | .hbm, ⟨19, _⟩ => ⟨S256x3x224x224, .f32⟩
  | .hbm, ⟨20, _⟩ => ⟨S256x3x224x224, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S256x3x224x224, .f32⟩
  | .hbm, ⟨25, _⟩ => ⟨S256x3x224x224, .f32⟩
  | .hbm, ⟨26, _⟩ => ⟨S_, .f32⟩
  | .hbm, ⟨27, _⟩ => ⟨S256x3x224x224, .f32⟩
  | .hbm, ⟨28, _⟩ => ⟨S256x3x224x224, .f32⟩
  | _, _ => ⟨S256x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_0 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v17 : Ref sig .tc := ⟨.hbm, 28, rfl⟩

abbrev nD : Nat := 1
abbrev τ : Topo := Topo.v7x

variable {F : FTy → Type} [FloatOps F]

class Facts₀ : Prop where
  shapeCasts_S196_S14x14 : S196.ShapeCasts S14x14
  bcast_S14x14_S14x16x14_0_2 : S14x14.BroadcastsInDim S14x16x14 (![0, 2] : Fin 2 → Fin S14x16x14.rank)
  shapeCasts_S14x16x14_S224x14 : S14x16x14.ShapeCasts S224x14
  bcast_S224x14_S224x14x16_0_1 : S224x14.BroadcastsInDim S224x14x16 (![0, 1] : Fin 2 → Fin S224x14x16.rank)
  shapeCasts_S224x14x16_S224x224 : S224x14x16.ShapeCasts S224x224
  bcast_S_S224x224 : S_.BroadcastsInDim S224x224 (![] : Fin 0 → Fin S224x224.rank)
  bcast_S224x224_S1x1x224x224_2_3 : S224x224.BroadcastsInDim S1x1x224x224 (![2, 3] : Fin 2 → Fin S1x1x224x224.rank)
  bcast_S1x1x224x224_S256x3x224x224_0_1_2_3 : S1x1x224x224.BroadcastsInDim S256x3x224x224 (![0, 1, 2, 3] : Fin 4 → Fin S256x3x224x224.rank)
  bcast_S224x224_S1x224x224_1_2 : S224x224.BroadcastsInDim S1x224x224 (![1, 2] : Fin 2 → Fin S1x224x224.rank)
  bcast_S1x224x224_S3x224x224_0_1_2 : S1x224x224.BroadcastsInDim S3x224x224 (![0, 1, 2] : Fin 3 → Fin S3x224x224.rank)
  bcast_S3x224x224_S1x3x224x224_1_2_3 : S3x224x224.BroadcastsInDim S1x3x224x224 (![1, 2, 3] : Fin 3 → Fin S1x3x224x224.rank)
  bcast_S1x3x224x224_S256x3x224x224_0_1_2_3 : S1x3x224x224.BroadcastsInDim S256x3x224x224 (![0, 1, 2, 3] : Fin 4 → Fin S256x3x224x224.rank)
  bcast_S_S256x3x224x224 : S_.BroadcastsInDim S256x3x224x224 (![] : Fin 0 → Fin S256x3x224x224.rank)

variable [Facts₀]

class Facts : Prop extends Facts₀ where

variable [Facts]
-- ==== Proof.Blend.lean ====
/-
  The blend that both programs compute, as ONE function of the three argument arrays.

  Write a[h, w] for the per-pixel weight: the 196 patch weights squared, laid out as a 14 x 14 table, each entry
  repeated over its 16 x 16 patch of the 224 x 224 image. The result at (b, c, h, w) is

      min(1, max(-1, (1 - a[h, w]) * img[b, c, h, w] + a[h, w] * noise[c, h, w])).

  The weight map is built from alpha by the same five layout operations in both programs (square, view as 14 x 14,
  repeat rows 16 times, repeat columns 16 times), so it is kept here as that one term, `weightMap`: the two
  sides then agree on it whatever it holds. The blend itself is stated index by index over any float
  instance, with the three literals (1, -1, 1) kept as their words: the same word stands on both sides and is
  never evaluated. No algebraic law is needed: both programs associate the sum and the two products the same way.
-/
import Idealize.ShloMosaic.PureOps

noncomputable section

namespace Cert.Blend

open Idealize.ShloMosaic

variable {F : FTy → Type} [FloatOps F]

/-! ## Shapes -/

/-- The image batch, [256, 3, 224, 224]. -/
abbrev Simg : Shape := ⟨4, ![256, 3, 224, 224]⟩
/-- The shared noise image, [3, 224, 224]. -/
abbrev Snoise : Shape := ⟨3, ![3, 224, 224]⟩
/-- The per-pixel weight map, [224, 224]. -/
abbrev Smap : Shape := ⟨2, ![224, 224]⟩
/-- The patch weights, [196]. -/
abbrev Salpha : Shape := ⟨1, ![196]⟩
/-- The patch weights as a table, [14, 14]. -/
abbrev Stable : Shape := ⟨2, ![14, 14]⟩
/-- Each table row repeated 16 times, [14, 16, 14]. -/
abbrev Srows3 : Shape := ⟨3, ![14, 16, 14]⟩
/-- The same, rows merged, [224, 14]. -/
abbrev Srows : Shape := ⟨2, ![224, 14]⟩
/-- Each column entry repeated 16 times, [224, 14, 16]. -/
abbrev Scols3 : Shape := ⟨3, ![224, 14, 16]⟩

theorem table_of_alpha : Salpha.ShapeCasts Stable := by decide
theorem rows3_of_table : Stable.BroadcastsInDim Srows3 (![0, 2] : Fin 2 → Fin Srows3.rank) := by decide
theorem rows_of_rows3 : Srows3.ShapeCasts Srows := by decide
theorem cols3_of_rows : Srows.BroadcastsInDim Scols3 (![0, 1] : Fin 2 → Fin Scols3.rank) := by decide
theorem map_of_cols3 : Scols3.ShapeCasts Smap := by decide

/-! ## The weight map -/

/-- The per-pixel weight map of the patch weights `alpha`: alpha squared entry by entry, viewed as the 14 x 14
    table, every row repeated 16 times and then every column entry repeated 16 times, so that the entry at pixel
    (h, w) is the squared weight of the patch (h / 16, w / 16). -/
def weightMap (alpha : Salpha.Idx → F .f32) : Smap.Idx → F .f32 :=
  shapeCast Smap (broadcastInDim Scols3 ![0, 1] cols3_of_rows
    (shapeCast Srows (broadcastInDim Srows3 ![0, 2] rows3_of_table
      (shapeCast Stable (mulf alpha alpha) table_of_alpha)) rows_of_rows3)) map_of_cols3

/-! ## The blend, index by index -/

/-- The pixel (h, w) of an image index (b, c, h, w). -/
abbrev pixel (i : Simg.Idx) : Smap.Idx := fun a => match a with
  | ⟨0, _⟩ => ⟨(i 2).val, (i 2).isLt⟩
  | ⟨1, _⟩ => ⟨(i 3).val, (i 3).isLt⟩

/-- The noise entry (c, h, w) that an image index (b, c, h, w) reads: the noise is shared by the whole batch. -/
abbrev plane (i : Simg.Idx) : Snoise.Idx := fun a => match a with
  | ⟨0, _⟩ => ⟨(i 1).val, (i 1).isLt⟩
  | ⟨1, _⟩ => ⟨(i 2).val, (i 2).isLt⟩
  | ⟨2, _⟩ => ⟨(i 3).val, (i 3).isLt⟩

/-- The blended and clipped image: at (b, c, h, w),
    min(1, max(-1, (1 - a[h, w]) * img[b, c, h, w] + a[h, w] * noise[c, h, w])). -/
def blend (img : Simg.Idx → F .f32) (noise : Snoise.Idx → F .f32) (a : Smap.Idx → F .f32) : Simg.Idx → F .f32 := fun i =>
  FloatOps.minimumf (FloatOps.ofBits .f32 0x3F800000#32)
    (FloatOps.maximumf (FloatOps.ofBits .f32 0xBF800000#32)
      (FloatOps.addf
        (FloatOps.mulf (FloatOps.subf (FloatOps.ofBits .f32 0x3F800000#32) (a (pixel i))) (img i))
        (FloatOps.mulf (a (pixel i)) (noise (plane i)))))

end Cert.Blend

end
-- ==== Proof.BlendKernel.lean ====
/-
  The kernel's result array is the blend.

  The grid has 16 points; point t works on the 16 images 16 t .. 16 t + 15 of the batch, with the whole noise
  image and the whole weight map resident. What the body leaves in its output block is, entry by entry, the
  clipped blend of the image block's entry with the noise and map entries under it (the generated value leg
  reads the body's shape casts and broadcasts at an index; its `E3`). Image index (16 t + b, c, h, w) lies under
  block entry (b, c, h, w); the noise and the map are read at (c, h, w) and (h, w) whatever t is. So point t
  writes back block t of ONE array, the blend of the three arrays the region finds, and the 16 blocks tile the
  batch axis: the image with batch coordinate n is in block n / 16. The weight map the region finds is what the
  host operations before it built from alpha, which is `weightMap` word for word.
-/
import proofs.«155382_j60662118088856_1_alg».proof.Proof.Gen.KernelIdeal.Value
import proofs.«155382_j60662118088856_1_alg».proof.Proof.Blend
import Idealize.ShloMosaic.Lib.Pipeline.Value
import Idealize.ShloMosaic.Lib.StableHlo.Run

noncomputable section

namespace Cert.Blend.Kernel

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## The arrays the region finds -/

/-- The image batch as the region finds it. -/
abbrev imgAt (c : Dev nD) : Simg.Idx → F .f32 := V m c main_arg0
/-- The noise image as the region finds it. -/
abbrev noiseAt (c : Dev nD) : Snoise.Idx → F .f32 := V m c main_arg1
/-- The weight map as the region finds it. -/
abbrev mapAt (c : Dev nD) : Smap.Idx → F .f32 := V m c main_v5

/-- The weight map the region finds is the one the six host operations before it build from alpha. -/
theorem mapAt_eq (c : Dev nD) : mapAt m c = weightMap (m ((c : Thread nD τ).loc main_arg2)) := by
  show V m c main_v5 = _
  dsimp only [Gen.V, Gen.hostOps0]
  after_results
  rfl

/-! ## One block entry -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- What the body leaves in its output block, at block entry `y`: the body loads its three buffers whole, so the
    generated entry-by-entry form applies to the buffers' contents themselves. -/
theorem out_apply (x0 : Vec F S16x3x224x224 .f32) (x1 : Vec F S3x224x224 .f32) (x2 : Vec F S224x224 .f32)
    (y : S16x3x224x224.Idx) : out0_3 x0 x1 x2 y = E3 x2 x0 x1 y := by
  unfold out0_3
  rw [canon3_eq]
  simp only [View.ld_unit_zero (S := S224x224) zeros2, View.ld_unit_zero (S := S3x224x224) zeros3,
    View.ld_unit_zero (S := S16x3x224x224) zeros4]

/-- A block entry is the blend at an image index, as soon as the block's map, image and noise entries under it
    are the arrays' entries at that index's pixel, at the index itself and at its channel and pixel. (The body
    reads the map twice, at the same entry.) -/
theorem entry_blend (P0 : Vec F S224x224 .f32) (P1 : Vec F S16x3x224x224 .f32) (P2 : Vec F S3x224x224 .f32)
    (img : Simg.Idx → F .f32) (noise : Snoise.Idx → F .f32) (a : Smap.Idx → F .f32)
    (y : S16x3x224x224.Idx) (i : Simg.Idx)
    (h0 : P0 (ix3_0 y) = a (pixel i)) (h1 : P1 (ix3_1 y) = img i) (h3 : P2 (ix3_3 y) = noise (plane i)) :
    E3 P0 P1 P2 y = blend img noise a i := by
  show FloatOps.minimumf _ (FloatOps.maximumf _ (FloatOps.addf (FloatOps.mulf (FloatOps.subf _ (P0 (ix3_0 y))) (P1 (ix3_1 y)))
    (FloatOps.mulf (P0 (ix3_2 y)) (P2 (ix3_3 y))))) = _
  rw [h0, h1, h3]
  rfl

/-! ## The blocks -/

/-- The printed index maps over the 16 grid points: the image and output blocks move along the batch axis with the
    point and sit at 0 on the other axes; the noise and map blocks are the whole arrays. -/
theorem index_facts : ∀ t : Fin cfg0.N,
    win0_3.index t (0 : Fin 4) = t.val ∧ win0_3.index t (1 : Fin 4) = 0 ∧ win0_3.index t (2 : Fin 4) = 0 ∧ win0_3.index t (3 : Fin 4) = 0
    ∧ win0_0.index t (0 : Fin 4) = t.val ∧ win0_0.index t (1 : Fin 4) = 0 ∧ win0_0.index t (2 : Fin 4) = 0 ∧ win0_0.index t (3 : Fin 4) = 0
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = 0 :=
  (by decide +kernel : ∀ t : Fin grid0.N, _)

/-- Point `t` writes back block `t` of the blend of the arrays the region finds. -/
theorem flushed_eq (c : Dev nD) (t : Fin cfg0.N) :
    (dats m 0 c).flushed 3 t = ((cfg0.win 3).blk t).view.read (Elt F) (blend (imgAt m c) (noiseAt m c) (mapAt m c)) := by
  rw [flushed3]
  obtain ⟨o0, o1, o2, o3, i0, i1, i2, i3, n0, n1, n2, a0, a1⟩ := index_facts t
  funext j
  show out0_3 (iblk m c 0 t) (iblk m c 1 t) (iblk m c 2 t) j
    = blend (imgAt m c) (noiseAt m c) (mapAt m c) (((cfg0.win 3).blk t).view.emb j)
  refine (out_apply _ _ _ j).trans (entry_blend _ _ _ _ _ _ j _ ?_ ?_ ?_)
  · -- the map block is the whole map: entry (h, w) of the block is entry (h, w) of the array
    show V m c main_v5 (((cfg0.win 2).blk t).view.emb (ix3_0 j)) = V m c main_v5 (pixel (((cfg0.win 3).blk t).view.emb j))
    refine congrArg (V m c main_v5) (funext fun a => Fin.ext ?_)
    match a with
    | ⟨0, _⟩ => show win0_2.index t (0 : Fin 2) * 224 + 1 * (j 2).val = win0_3.index t (2 : Fin 4) * 224 + 1 * (j 2).val; omega
    | ⟨1, _⟩ => show win0_2.index t (1 : Fin 2) * 224 + 1 * (j 3).val = win0_3.index t (3 : Fin 4) * 224 + 1 * (j 3).val; omega
  · -- the image block and the output block are the same rows of the batch
    show V m c main_arg0 (((cfg0.win 0).blk t).view.emb (ix3_1 j)) = V m c main_arg0 (((cfg0.win 3).blk t).view.emb j)
    refine congrArg (V m c main_arg0) (funext fun a => Fin.ext ?_)
    match a with
    | ⟨0, _⟩ => show win0_0.index t (0 : Fin 4) * 16 + 1 * (j 0).val = win0_3.index t (0 : Fin 4) * 16 + 1 * (j 0).val; omega
    | ⟨1, _⟩ => show win0_0.index t (1 : Fin 4) * 3 + 1 * (j 1).val = win0_3.index t (1 : Fin 4) * 3 + 1 * (j 1).val; omega
    | ⟨2, _⟩ => show win0_0.index t (2 : Fin 4) * 224 + 1 * (j 2).val = win0_3.index t (2 : Fin 4) * 224 + 1 * (j 2).val; omega
    | ⟨3, _⟩ => show win0_0.index t (3 : Fin 4) * 224 + 1 * (j 3).val = win0_3.index t (3 : Fin 4) * 224 + 1 * (j 3).val; omega
  · -- the noise block is the whole noise image: entry (c, h, w) of the block is entry (c, h, w) of the array
    show V m c main_arg1 (((cfg0.win 1).blk t).view.emb (ix3_3 j)) = V m c main_arg1 (plane (((cfg0.win 3).blk t).view.emb j))
    refine congrArg (V m c main_arg1) (funext fun a => Fin.ext ?_)
    match a with
    | ⟨0, _⟩ => show win0_1.index t (0 : Fin 3) * 3 + 1 * (j 1).val = win0_3.index t (1 : Fin 4) * 3 + 1 * (j 1).val; omega
    | ⟨1, _⟩ => show win0_1.index t (1 : Fin 3) * 224 + 1 * (j 2).val = win0_3.index t (2 : Fin 4) * 224 + 1 * (j 2).val; omega
    | ⟨2, _⟩ => show win0_1.index t (2 : Fin 3) * 224 + 1 * (j 3).val = win0_3.index t (3 : Fin 4) * 224 + 1 * (j 3).val; omega

/-- An image index is in point `t`'s output block iff each coordinate is in the block's range on its axis. -/
theorem mem_block (t : Fin cfg0.N) (i : S256x3x224x224.Idx) :
    i ∈ ((cfg0.win 3).blk t).view.set ↔ ∀ a : Fin 4, win0_3.index t a * S16x3x224x224.size a ≤ (i a).val
      ∧ (i a).val < win0_3.index t a * S16x3x224x224.size a + S16x3x224x224.size a := by
  show i ∈ ((View.whole main_v6).slice (win0_3.rect t)).set ↔ _
  rw [View.set_slice_whole, Rect.mem_set_unit]
  exact Iff.rfl

/-- The 16 output blocks tile the batch axis: the image with batch coordinate n lies in the block of point n / 16,
    which is written back like every point's. -/
theorem cover (i : S256x3x224x224.Idx) :
    ∃ t : Fin cfg0.N, (cfg0.win 3).flush t = true ∧ i ∈ ((cfg0.win 3).blk t).view.set := by
  have hi0 : (i 0).val < 256 := (i 0).isLt
  have hi1 : (i 1).val < 3 := (i 1).isLt
  have hi2 : (i 2).val < 224 := (i 2).isLt
  have hi3 : (i 3).val < 224 := (i 3).isLt
  have hN : (i 0).val / 16 < cfg0.N := by show (i 0).val / 16 < grid0.N; rw [N_0]; omega
  obtain ⟨o0, o1, o2, o3, -⟩ := index_facts ⟨(i 0).val / 16, hN⟩
  have o0' : win0_3.index ⟨(i 0).val / 16, hN⟩ (0 : Fin 4) = (i 0).val / 16 := o0
  refine ⟨⟨(i 0).val / 16, hN⟩, flush0_3 _, ?_⟩
  rw [mem_block]
  intro a
  match a with
  | ⟨0, _⟩ => show win0_3.index ⟨(i 0).val / 16, hN⟩ (0 : Fin 4) * 16 ≤ (i 0).val ∧ (i 0).val < win0_3.index ⟨(i 0).val / 16, hN⟩ (0 : Fin 4) * 16 + 16; omega
  | ⟨1, _⟩ => show win0_3.index ⟨(i 0).val / 16, hN⟩ (1 : Fin 4) * 3 ≤ (i 1).val ∧ (i 1).val < win0_3.index ⟨(i 0).val / 16, hN⟩ (1 : Fin 4) * 3 + 3; omega
  | ⟨2, _⟩ => show win0_3.index ⟨(i 0).val / 16, hN⟩ (2 : Fin 4) * 224 ≤ (i 2).val ∧ (i 2).val < win0_3.index ⟨(i 0).val / 16, hN⟩ (2 : Fin 4) * 224 + 224; omega
  | ⟨3, _⟩ => show win0_3.index ⟨(i 0).val / 16, hN⟩ (3 : Fin 4) * 224 ≤ (i 3).val ∧ (i 3).val < win0_3.index ⟨(i 0).val / 16, hN⟩ (3 : Fin 4) * 224 + 224; omega

/-! ## The array after the run -/

/-- After the run the result array holds the blend of the argument arrays as launched, under the weight map of
    alpha: every index is in some written-back block, every block is a block of the blend of what the region found,
    and the region found the image and the noise as launched and the map as the host operations built it. -/
theorem final (c : Dev nD) : (dats m 0 c).arrAt 3 cfg0.N
    = blend (m ((c : Thread nD τ).loc main_arg0)) (m ((c : Thread nD τ).loc main_arg1))
        (weightMap (m ((c : Thread nD τ).loc main_arg2))) := by
  rw [(dats m 0 c).arrAt_eq_of_cover 3 (blend (imgAt m c) (noiseAt m c) (mapAt m c)) (fun t _ => flushed_eq m c t) cover,
    mapAt_eq]
  show blend (V m c main_arg0) (V m c main_arg1) _ = _
  rw [V_main_arg0, V_main_arg1]

/-- Every weakly fair execution of the kernel program terminates with the result array at the blend of the
    arguments and the arguments unchanged. -/
theorem run : θ_run defs (onTc (τ := τ) (main (F := F))) ⟨m, fun _ => 0, ρ⟩ fun r => ∀ c : Dev nD,
      r.2.mem ((c : Thread nD τ).loc main_v6)
        = blend (m ((c : Thread nD τ).loc main_arg0)) (m ((c : Thread nD τ).loc main_arg1))
            (weightMap (m ((c : Thread nD τ).loc main_arg2)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Blend.Kernel

end
-- ==== Proof.BlendReference.lean ====
/-
  The reference program computes the blend.

  Its result is read one operation at a time at an image index (b, c, h, w). The clip is the outer
  min(1, max(-1, .)) with both bounds broadcast scalars. Under it, the first product reads (1 - a) through two
  broadcasts that put the [224, 224] map under every (b, c), so it is read at the pixel (h, w); the second product
  is formed on the [3, 224, 224] noise shape, where the map is put under every channel, and is then broadcast
  over the batch, so the map is again read at (h, w) and the noise at (c, h, w). The weight map itself is the
  reference's first five operations, which are `weightMap` of alpha word for word.
-/
import proofs.«155382_j60662118088856_1_alg».proof.Proof.Gen.ReferenceIdeal.Read
import proofs.«155382_j60662118088856_1_alg».proof.Proof.Blend

noncomputable section

namespace Cert.Blend.Reference

open Cert.ReferenceIdeal Cert.ReferenceIdeal.Read Idealize.ShloMosaic

variable {F : FTy → Type} [FloatOps F]

/-- The reference's first five operations build the weight map. -/
theorem map_eq (x2 : S196.Idx → F .f32) : val_main_v5 (F := F) x2 = weightMap x2 := rfl

/-- Through the two broadcasts over batch and channel, an image index reads the [224, 224] operand at its pixel. -/
theorem pixel_under_batch (i : S256x3x224x224.Idx) : idx_main_v8 (idx_main_v9 i) = pixel i :=
  funext fun a => Fin.ext (by match a with | ⟨0, _⟩ => rfl | ⟨1, _⟩ => rfl)

/-- Through the broadcast over the batch, an image index reads the [3, 224, 224] operand at its channel and pixel. -/
theorem plane_under_batch (i : S256x3x224x224.Idx) : idx_main_v14 (idx_main_v15 i) = plane i :=
  funext fun a => Fin.ext (by match a with | ⟨0, _⟩ => rfl | ⟨1, _⟩ => rfl | ⟨2, _⟩ => rfl)

/-- Through the broadcast over the channels, a noise index (c, h, w) reads the [224, 224] map at (h, w): the pixel
    of the image index it came from. -/
theorem pixel_under_channel (i : S256x3x224x224.Idx) : idx_main_v11 (idx_main_v12 (idx_main_v14 (idx_main_v15 i))) = pixel i :=
  funext fun a => Fin.ext (by match a with | ⟨0, _⟩ => rfl | ⟨1, _⟩ => rfl)

/-- The reference's result is the blend of its arguments under the weight map of alpha. -/
theorem result_eq (x0 : S256x3x224x224.Idx → F .f32) (x1 : S3x224x224.Idx → F .f32) (x2 : S196.Idx → F .f32) :
    val_main_v17 (F := F) x0 x1 x2 = blend x0 x1 (weightMap x2) := by
  funext i
  rw [val_main_v17_apply, val_main_call0_v4_apply, val_main_call0_v3_apply, val_main_cst_1_apply,
    val_main_call0_v2_apply, val_main_call0_v1_apply, val_main_call0_v0_apply, val_main_cst_0_apply,
    val_main_v16_apply, val_main_v10_apply, val_main_v9_apply, val_main_v8_apply, val_main_v7_apply,
    val_main_v6_apply, val_main_cst_apply,
    val_main_v15_apply, val_main_v14_apply, val_main_v13_apply, val_main_v12_apply, val_main_v11_apply,
    pixel_under_batch, plane_under_batch, pixel_under_channel, map_eq]
  rfl

end Cert.Blend.Reference

end
-- ==== Proof.lean ====
/-
  The kernel blends an image batch with a shared noise image under a per-pixel weight map and clips the result;
  the reference does the same in plain array operations. With a[h, w] the squared weight of the 16 x 16 patch
  that pixel (h, w) lies in, both compute, at (b, c, h, w),

      min(1, max(-1, (1 - a[h, w]) * img[b, c, h, w] + a[h, w] * noise[c, h, w])),

  with the same three literals, the same association of the sum and of the two products, and the weight map
  built from alpha by the same five layout operations. So no algebraic law joins the two sides and the
  finiteness of the inputs is never used: the proof is that both result arrays are this one function of the
  arguments (`Cert.Blend.blend` under `Cert.Blend.weightMap`), index by index.

  The kernel's side (Proof/BlendKernel.lean): the grid's 16 points each write back 16 images of the batch; what a
  point writes is its block of the blend of the arrays the region finds, and the blocks tile the batch axis. The
  reference's side (Proof/BlendReference.lean): its result read one operation at a time at an image index. The three
  frames are the generated ones (the reference's is its generated run with the result dropped), and the
  idealization rewrote nothing, so there is nothing to preserve.
-/
import proofs.«155382_j60662118088856_1_alg».proof.Defs
import proofs.«155382_j60662118088856_1_alg».proof.Proof.Gen.Kernel
import proofs.«155382_j60662118088856_1_alg».proof.Proof.Gen.Kernel.Skeleton
import proofs.«155382_j60662118088856_1_alg».proof.Proof.Gen.Kernel.Launch
import proofs.«155382_j60662118088856_1_alg».proof.Proof.Gen.Kernel.Points
import proofs.«155382_j60662118088856_1_alg».proof.Proof.Gen.Kernel.Frame
import proofs.«155382_j60662118088856_1_alg».proof.Proof.Gen.KernelIdeal
import proofs.«155382_j60662118088856_1_alg».proof.Proof.Gen.KernelIdeal.Skeleton
import proofs.«155382_j60662118088856_1_alg».proof.Proof.Gen.KernelIdeal.Launch
import proofs.«155382_j60662118088856_1_alg».proof.Proof.Gen.KernelIdeal.Points
import proofs.«155382_j60662118088856_1_alg».proof.Proof.Gen.KernelIdeal.Frame
import proofs.«155382_j60662118088856_1_alg».proof.Proof.Gen.ReferenceIdeal
import proofs.«155382_j60662118088856_1_alg».proof.Proof.Gen.Pre_finite_inputs
import proofs.«155382_j60662118088856_1_alg».proof.Proof.Gen.KernelIdeal.Value
import proofs.«155382_j60662118088856_1_alg».proof.Proof.Gen.ReferenceIdeal.Run
import proofs.«155382_j60662118088856_1_alg».proof.Proof.Gen.ReferenceIdeal.Read
import proofs.«155382_j60662118088856_1_alg».proof.Proof.BlendKernel
import proofs.«155382_j60662118088856_1_alg».proof.Proof.BlendReference
import Idealize.ShloMosaic.Adequacy
import Idealize.ShloMosaic.Init

noncomputable section

namespace Cert.Proof

open Idealize.ShloMosaic Idealize.SL.Sem

/-- The kernel program terminates without a fault and leaves its arguments unchanged. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- So does the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Over the extended reals the kernel's result array and the reference's are both the blend of the arguments
    under the weight map of alpha; the arguments agree, so the results are equal entry by entry. -/
theorem algebraic : Cert.algebraic_KernelIdeal_ReferenceIdeal := by
  intro m ρ m' ρ' _ hagree
  refine ⟨_, Cert.Blend.Kernel.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Blend.Reference.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
